-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128000 : Shape := ⟨2, ![8, 128000]⟩
abbrev S128000x512 : Shape := ⟨2, ![128000, 512]⟩
abbrev S_ : Shape := ⟨0, ![]⟩

class Facts : Prop where
  bcast_S_S8x128000 : S_.BroadcastsInDim S8x128000 (![] : Fin 0 → Fin S8x128000.rank)
  reducesTo_S8x128000_S_d0_1 : S8x128000.ReducesTo [0, 1] S_
  h_S_ : 0 < S_.numel
  bcast_S_S128000x512 : S_.BroadcastsInDim S128000x512 (![] : Fin 0 → Fin S128000x512.rank)
  reducesTo_S128000x512_S_d0_1 : S128000x512.ReducesTo [0, 1] S_

variable [Facts]

def fn {F : FTy → Type} [FloatOps F] (main_arg0 : FVec F S8x128000 .f32) (main_arg1 : FVec F S128000x512 .f32) : IVec S_ 1 :=
  let main_v0 : FVec F S8x128000 .f32 := Host.absf main_arg0
  let main_cst : FVec F S_ .f32 := constant S_ .f32 0x7F800000#32
  let main_v1 : FVec F S8x128000 .f32 := broadcastInDim S8x128000 ![] bcast_S_S8x128000 main_cst
  let main_v2 : IVec S8x128000 1 := cmpf .olt main_v0 main_v1
  let main_c : IVec S_ 1 := constantI S_ 1 1#1
  let main_v3 : IVec S_ 1 := (fun x v => Host.reduce IntOp.andi x v reducesTo_S8x128000_S_d0_1 h_S_) main_v2 main_c
  let main_v4 : FVec F S128000x512 .f32 := Host.absf main_arg1
  let main_cst_0 : FVec F S_ .f32 := constant S_ .f32 0x7F800000#32
  let main_v5 : FVec F S128000x512 .f32 := broadcastInDim S128000x512 ![] bcast_S_S128000x512 main_cst_0
  let main_v6 : IVec S128000x512 1 := cmpf .olt main_v4 main_v5
  let main_c_1 : IVec S_ 1 := constantI S_ 1 1#1
  let main_v7 : IVec S_ 1 := (fun x v => Host.reduce IntOp.andi x v reducesTo_S128000x512_S_d0_1 h_S_) main_v6 main_c_1
  let main_v8 : IVec S_ 1 := andi main_v3 main_v7
  main_v8
-- ==== Kernel.lean ====
abbrev S8x128000 : Shape := ⟨2, ![8, 128000]⟩
abbrev S128000x512 : Shape := ⟨2, ![128000, 512]⟩
abbrev S_ : Shape := ⟨0, ![]⟩
abbrev S8x512 : Shape := ⟨2, ![8, 512]⟩
abbrev S8x6400 : Shape := ⟨2, ![8, 6400]⟩
abbrev S6400x512 : Shape := ⟨2, ![6400, 512]⟩

abbrev nBuf : Space → Nat
  | .hbm => 31
  | .vmem => 10
  | .smem => 0
  | _ => 0

abbrev bufTy : (tb : Table) → Fin (tcTables nBuf tb) → BufTy
  | .hbm, ⟨0, _⟩ => ⟨S8x128000, .f32⟩
  | .hbm, ⟨1, _⟩ => ⟨S128000x512, .f32⟩
  | .hbm, ⟨2, _⟩ => ⟨S8x128000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x128000, .f32⟩
  | .hbm, ⟨7, _⟩ => ⟨S8x128000, .f32⟩
  | .hbm, ⟨8, _⟩ => ⟨S8x512, .f32⟩
  | .hbm, ⟨9, _⟩ => ⟨S8x128000, .f32⟩
  | .hbm, ⟨10, _⟩ => ⟨S8x128000, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x128000, .f32⟩
  | .hbm, ⟨15, _⟩ => ⟨S8x128000, .f32⟩
  | .hbm, ⟨16, _⟩ => ⟨S_, .f32⟩
  | .hbm, ⟨17, _⟩ => ⟨S8x128000, .f32⟩
  | .hbm, ⟨18, _⟩ => ⟨S8x128000, .f32⟩
  | .hbm, ⟨19, _⟩ => ⟨S_, .f32⟩
  | .hbm, ⟨20, _⟩ => ⟨S8x128000, .f32⟩
  | .hbm, ⟨21, _⟩ => ⟨S8x128000, .f32⟩
  | .hbm, ⟨22, _⟩ => ⟨S8x128000, .f32⟩
  | .hbm, ⟨23, _⟩ => ⟨S8x128000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x128000, .f32⟩
  | .hbm, ⟨28, _⟩ => ⟨S8x128000, .f32⟩
  | .hbm, ⟨29, _⟩ => ⟨S8x128000, .f32⟩
  | .hbm, ⟨30, _⟩ => ⟨S8x128000, .f32⟩
  | .local _ .vmem, ⟨0, _⟩ => ⟨S8x6400, .f32⟩
  | .local _ .vmem, ⟨1, _⟩ => ⟨S8x6400, .f32⟩
  | .local _ .vmem, ⟨2, _⟩ => ⟨S6400x512, .f32⟩
  | .local _ .vmem, ⟨3, _⟩ => ⟨S6400x512, .f32⟩
  | .local _ .vmem, ⟨4, _⟩ => ⟨S8x512, .f32⟩
  | .local _ .vmem, ⟨5, _⟩ => ⟨S8x512, .f32⟩
  | .local _ .vmem, ⟨6, _⟩ => ⟨S6400x512, .f32⟩
  | .local _ .vmem, ⟨7, _⟩ => ⟨S6400x512, .f32⟩
  | .local _ .vmem, ⟨8, _⟩ => ⟨S8x6400, .f32⟩
  | .local _ .vmem, ⟨9, _⟩ => ⟨S8x6400, .f32⟩
  | _, _ => ⟨S8x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S6400x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S8x128000_S_d0_1 : S8x128000.ReducesTo [0, 1] S_
  h_S_ : 0 < S_.numel
  bcast_S_S8x128000 : S_.BroadcastsInDim S8x128000 (![] : Fin 0 → Fin S8x128000.rank)
  inb_S8x512_S8x512_0_0 : ∀ a, (![0, 0] : Fin 2 → Nat) a + S8x512.size a ≤ S8x512.size a
  h_S8x512 : 0 < S8x512.numel
  inb_S8x6400_S8x6400_0_0 : ∀ a, (![0, 0] : Fin 2 → Nat) a + S8x6400.size a ≤ S8x6400.size a
  h_S8x6400 : 0 < S8x6400.numel
  shapeCasts_S8x6400_S8x6400 : S8x6400.ShapeCasts S8x6400
  bitsLt_bf16_f32 : FTy.bits .bf16 < FTy.bits .f32
  inb_S6400x512_S6400x512_0_0 : ∀ a, (![0, 0] : Fin 2 → Nat) a + S6400x512.size a ≤ S6400x512.size a
  h_S6400x512 : 0 < S6400x512.numel
  shapeCasts_S8x512_S8x512 : S8x512.ShapeCasts S8x512
  dot_S8x6400_S6400x512_S8x512_1_0_0_1_n_n_wf : DotDims.WF S8x6400 S6400x512 S8x512 [1] [0] [0] [1] [] []
  dot_S8x512_S6400x512_S8x6400_1_1_0_0_n_n_wf : DotDims.WF S8x512 S6400x512 S8x6400 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x6400.size a ≤ S8x128000.size a
  hwx0_0 : ∀ i : grid0.Coords, EltTy.bits .f32 = 32 ∨ (Rect.block (s := S8x128000) S8x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x512.size a ≤ S128000x512.size a
  hwx0_1 : ∀ i : grid0.Coords, EltTy.bits .f32 = 32 ∨ (Rect.block (s := S128000x512) S6400x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S8x512.size a
  hwx1_0 : ∀ i : grid1.Coords, EltTy.bits .f32 = 32 ∨ (Rect.block (s := S8x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x512.size a ≤ S128000x512.size a
  hwx1_1 : ∀ i : grid1.Coords, EltTy.bits .f32 = 32 ∨ (Rect.block (s := S128000x512) S6400x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x6400.size a ≤ S8x128000.size a
  hwx1_2 : ∀ i : grid1.Coords, EltTy.bits .f32 = 32 ∨ (Rect.block (s := S8x128000) S8x6400.size (cc1_transform_2 i) (hinb1_2 i)).WholeWords (EltTy.packing .f32)

variable [Facts₀]

def dot_S8x6400_S6400x512_S8x512_1_0_0_1_n_n : DotDims S8x6400 S6400x512 S8x512 where
  lhsContracting := [1]
  rhsContracting := [0]
  lhsNonContracting := [0]
  rhsNonContracting := [1]
  lhsBatch := []
  rhsBatch := []
  wf := dot_S8x6400_S6400x512_S8x512_1_0_0_1_n_n_wf
def dot_S8x512_S6400x512_S8x6400_1_1_0_0_n_n : DotDims S8x512 S6400x512 S8x6400 where
  lhsContracting := [1]
  rhsContracting := [1]
  lhsNonContracting := [0]
  rhsNonContracting := [0]
  lhsBatch := []
  rhsBatch := []
  wf := dot_S8x512_S6400x512_S8x6400_1_1_0_0_n_n_wf

abbrev win0_0 : Pipeline.Window sig grid0 :=
  Pipeline.Window.ofSpec (Memref.whole main_v2) S8x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S8x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8x6400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x128000 : Shape := ⟨2, ![8, 128000]⟩
abbrev S128000x512 : Shape := ⟨2, ![128000, 512]⟩
abbrev S_ : Shape := ⟨0, ![]⟩
abbrev S8x512 : Shape := ⟨2, ![8, 512]⟩
abbrev S512x128000 : Shape := ⟨2, ![512, 128000]⟩

abbrev nBuf : Space → Nat
  | .hbm => 32
  | .vmem => 0
  | .smem => 0
  | _ => 0

abbrev bufTy : (tb : Table) → Fin (tcTables nBuf tb) → BufTy
  | .hbm, ⟨0, _⟩ => ⟨S8x128000, .f32⟩
  | .hbm, ⟨1, _⟩ => ⟨S128000x512, .f32⟩
  | .hbm, ⟨2, _⟩ => ⟨S8x128000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x128000, .f32⟩
  | .hbm, ⟨7, _⟩ => ⟨S8x128000, .f32⟩
  | .hbm, ⟨8, _⟩ => ⟨S8x512, .f32⟩
  | .hbm, ⟨9, _⟩ => ⟨S512x128000, .f32⟩
  | .hbm, ⟨10, _⟩ => ⟨S8x128000, .f32⟩
  | .hbm, ⟨11, _⟩ => ⟨S8x128000, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x128000, .f32⟩
  | .hbm, ⟨16, _⟩ => ⟨S8x128000, .f32⟩
  | .hbm, ⟨17, _⟩ => ⟨S_, .f32⟩
  | .hbm, ⟨18, _⟩ => ⟨S8x128000, .f32⟩
  | .hbm, ⟨19, _⟩ => ⟨S8x128000, .f32⟩
  | .hbm, ⟨20, _⟩ => ⟨S_, .f32⟩
  | .hbm, ⟨21, _⟩ => ⟨S8x128000, .f32⟩
  | .hbm, ⟨22, _⟩ => ⟨S8x128000, .f32⟩
  | .hbm, ⟨23, _⟩ => ⟨S8x128000, .f32⟩
  | .hbm, ⟨24, _⟩ => ⟨S8x128000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x128000, .f32⟩
  | .hbm, ⟨29, _⟩ => ⟨S8x128000, .f32⟩
  | .hbm, ⟨30, _⟩ => ⟨S8x128000, .f32⟩
  | .hbm, ⟨31, _⟩ => ⟨S8x128000, .f32⟩
  | _, _ => ⟨S8x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  reducesTo_S8x128000_S_d0_1 : S8x128000.ReducesTo [0, 1] S_
  h_S_ : 0 < S_.numel
  bcast_S_S8x128000 : S_.BroadcastsInDim S8x128000 (![] : Fin 0 → Fin S8x128000.rank)
  transposes_S128000x512_S512x128000_1_0 : S128000x512.Transposes [1, 0] S512x128000
  dot_S8x128000_S128000x512_S8x512_1_0_0_1_n_n_wf : DotDims.WF S8x128000 S128000x512 S8x512 [1] [0] [0] [1] [] []
  dot_S8x512_S512x128000_S8x128000_1_0_0_1_n_n_wf : DotDims.WF S8x512 S512x128000 S8x128000 [1] [0] [0] [1] [] []

variable [Facts₀]

def dot_S8x128000_S128000x512_S8x512_1_0_0_1_n_n : DotDims S8x128000 S128000x512 S8x512 where
  lhsContracting := [1]
  rhsContracting := [0]
  lhsNonContracting := [0]
  rhsNonContracting := [1]
  lhsBatch := []
  rhsBatch := []
  wf := dot_S8x128000_S128000x512_S8x512_1_0_0_1_n_n_wf
def dot_S8x512_S512x128000_S8x128000_1_0_0_1_n_n : DotDims S8x512 S512x128000 S8x128000 where
  lhsContracting := [1]
  rhsContracting := [0]
  lhsNonContracting := [0]
  rhsNonContracting := [1]
  lhsBatch := []
  rhsBatch := []
  wf := dot_S8x512_S512x128000_S8x128000_1_0_0_1_n_n_wf

class Facts : Prop extends Facts₀ where

variable [Facts]
-- ==== Proof.Spec.lean ====
/-
  What the two contractions compute, as plain sums over the extended reals, independent of either program.

  With X an 8 x 128000 array and W a 128000 x 512 array:
    projDown X W (b, r) = sum over k < 128000 of X(b, k) * W(k, r)       (the thin projection, contracted over the long axis)
    projUp   A W (b, v) = sum over r < 512    of A(b, r) * W(v, r)       (back up along the same W, contracted over its short axis)
  The long contraction is also given as a running sum over the first n column tiles of 6400, which is how a
  tile-by-tile accumulation meets it: the sum over the first n + 1 tiles is the sum over the first n tiles plus the
  sum over tile n, and twenty tiles make the whole axis.  Extended-real addition is commutative and associative,
  so regrouping a finite sum needs no finiteness of the terms.
-/
import Idealize.ShloMosaic.PureOps.Ideal
import Idealize.ShloMosaic.Lib.ValueIdx

noncomputable section

open scoped BigOperators

namespace Cert.Mint

open Idealize.ShloMosaic Idealize.ShloMosaic.ValueIdx

/-- 8 x 128000, 128000 x 512 and 8 x 512. -/
abbrev SBV : Shape := ⟨2, ![8, 128000]⟩
abbrev SVR : Shape := ⟨2, ![128000, 512]⟩
abbrev SBR : Shape := ⟨2, ![8, 512]⟩

/-- The product the long contraction sums at position k of the long axis (zero past the axis' end, so that it can be
    summed over a range of naturals). -/
def downTerm (X : SBV.Idx → EReal) (W : SVR.Idx → EReal) (i : SBR.Idx) (k : ℕ) : EReal :=
  if h : k < 128000 then
    X (ix2 (n0 := 8) (n1 := 128000) (i 0) ⟨k, h⟩) * W (ix2 (n0 := 128000) (n1 := 512) ⟨k, h⟩ (i 1))
  else 0

theorem downTerm_of_lt (X : SBV.Idx → EReal) (W : SVR.Idx → EReal) (i : SBR.Idx) (k : ℕ) (h : k < 128000) :
    downTerm X W i k
      = X (ix2 (n0 := 8) (n1 := 128000) (i 0) ⟨k, h⟩) * W (ix2 (n0 := 128000) (n1 := 512) ⟨k, h⟩ (i 1)) :=
  dif_pos h

/-- X W contracted over the long axis. -/
def projDown (X : SBV.Idx → EReal) (W : SVR.Idx → EReal) : SBR.Idx → EReal :=
  fun i => ∑ k : Fin 128000, X (ix2 (n0 := 8) (n1 := 128000) (i 0) k) * W (ix2 (n0 := 128000) (n1 := 512) k (i 1))

/-- A Wᵀ: contracted over W's short axis. -/
def projUp (A : SBR.Idx → EReal) (W : SVR.Idx → EReal) : SBV.Idx → EReal :=
  fun i => ∑ r : Fin 512, A (ix2 (n0 := 8) (n1 := 512) (i 0) r) * W (ix2 (n0 := 128000) (n1 := 512) (i 1) r)

/-- The long contraction restricted to the first n tiles of 6400 columns. -/
def projDownUpTo (n : ℕ) (X : SBV.Idx → EReal) (W : SVR.Idx → EReal) : SBR.Idx → EReal :=
  fun i => ∑ k ∈ Finset.range (6400 * n), downTerm X W i k

theorem projDownUpTo_zero (X : SBV.Idx → EReal) (W : SVR.Idx → EReal) (i : SBR.Idx) :
    projDownUpTo 0 X W i = 0 := by
  unfold projDownUpTo
  rw [Nat.mul_zero, Finset.range_zero, Finset.sum_empty]

/-- One more tile: the running sum grows by that tile's 6400 products. -/
theorem projDownUpTo_succ (n : ℕ) (X : SBV.Idx → EReal) (W : SVR.Idx → EReal) (i : SBR.Idx) :
    projDownUpTo (n + 1) X W i = projDownUpTo n X W i + ∑ j : Fin 6400, downTerm X W i (6400 * n + j.val) := by
  unfold projDownUpTo
  rw [show 6400 * (n + 1) = 6400 * n + 6400 from by ring, Finset.sum_range_add,
    Fin.sum_univ_eq_sum_range (fun j => downTerm X W i (6400 * n + j)) 6400]

/-- Twenty tiles are the whole axis. -/
theorem projDownUpTo_all (X : SBV.Idx → EReal) (W : SVR.Idx → EReal) : projDownUpTo 20 X W = projDown X W := by
  funext i
  unfold projDownUpTo projDown
  rw [show 6400 * 20 = 128000 from rfl, ← Fin.sum_univ_eq_sum_range (fun k => downTerm X W i k) 128000]
  exact Finset.sum_congr rfl fun k _ => downTerm_of_lt X W i k.val k.isLt

end Cert.Mint

end
-- ==== Proof.Glue.lean ====
/-
  The host arithmetic both programs share, as named functions of arrays, at any float instance.

    frob x        = sqrt (0 + sum over all entries of x * x)                      (the Frobenius norm, a scalar array)
    spread s      = the scalar s broadcast to 8 x 128000
    normalize x   = x / spread (frob x)
    blend P Xn n  = (L / spread (frob L)) * spread n,   L = c07 * (P / spread (frob P)) + c03 * Xn
  where c07 and c03 are the two blend weights as the binary32 words both programs print.  Both programs apply exactly
  these operations around their two contractions, so once the contractions agree the results agree by congruence and
  none of this arithmetic is ever opened.
-/
import proofs.«144648_j38689065402635_1_alg».proof.KernelIdeal

noncomputable section

namespace Cert.KernelIdeal.Glue

open Idealize.ShloMosaic Cert.KernelIdeal
open Facts₀ Facts

variable {F : FTy → Type} [FloatOps F] [Facts]

/-- The Frobenius norm of an 8 x 128000 array, as the host computes it: squares, a sum from zero, a square root. -/
def frob (x : FVec F S8x128000 .f32) : FVec F S_ .f32 :=
  Host.sqrt (Host.reduceAdd (mulf x x) (constant S_ .f32 0x00000000#32) reducesTo_S8x128000_S_d0_1 h_S_)

/-- A scalar broadcast to 8 x 128000. -/
def spread (s : FVec F S_ .f32) : FVec F S8x128000 .f32 :=
  broadcastInDim S8x128000 ![] bcast_S_S8x128000 s

/-- An array divided by its Frobenius norm. -/
def normalize (x : FVec F S8x128000 .f32) : FVec F S8x128000 .f32 :=
  Host.divf x (spread (frob x))

/-- Everything after the two contractions: normalise the projected array P, blend it with the normalised input Xn by
    the two printed weights, normalise the blend and rescale by the input's norm n. -/
def blend (P Xn : FVec F S8x128000 .f32) (n : FVec F S_ .f32) : FVec F S8x128000 .f32 :=
  have Pn : FVec F S8x128000 .f32 := Host.divf P (spread (frob P))
  have L : FVec F S8x128000 .f32 :=
    addf (mulf (spread (constant S_ .f32 0x3F333333#32)) Pn) (mulf (spread (constant S_ .f32 0x3E99999A#32)) Xn)
  mulf (Host.divf L (spread (frob L))) (spread n)

end Cert.KernelIdeal.Glue

end
-- ==== Proof.DownValue.lean ====
/-
  The thin projection, tile by tile.

  X is 8 x 128000 and W is 128000 x 512. The grid has twenty points; point t reads columns 6400 t, …, 6400 t + 6399 of X
  and the same rows of W, and adds the product of the two tiles to an 8 x 512 accumulator block, which is set to zero at
  point 0 and written to the result array once, after point 19. Over the extended reals nothing is rounded, so after
  point n the accumulator's entry (b, r) is the sum over k < 6400 (n + 1) of X(b, k) W(k, r) — by induction on n, each
  point adding its tile's 6400 products to what the point before left — and after point 19 that is the contraction over
  the whole long axis.
-/
import proofs.«144648_j38689065402635_1_alg».proof.Proof.Gen.KernelIdeal.Frame
import proofs.«144648_j38689065402635_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.DownValue

open Cert.KernelIdeal Cert.KernelIdeal.Gen Idealize.ShloMosaic.ValueIdx

theorem hz : (![0, 0] : Fin 2 → Nat) = fun _ => 0 := funext fun a => by fin_cases a <;> rfl

/-! ## What one grid point leaves in the accumulator block, for any float values -/

section Cases
variable {F : FTy → Type} [FloatOps F]

/-- A point other than the first: the accumulator block `xo` is read, and the point's one store leaves the payload of
    the two tiles and `xo`. -/
theorem out_B (c : Dev nD) (i : grid0.Coords) (a1 : Memref sig .tc .vmem S8x6400 .f32) (h1 : a1.IsWhole)
    (a2 : Memref sig .tc .vmem S6400x512 .f32) (h2 : a2.IsWhole) (a3 : Memref sig .tc .vmem S8x512 .f32) (h3 : a3.IsWhole)
    (hc : ¬cond0_0 i) (x0 : Vec F S8x6400 .f32) (x1 : Vec F S6400x512 .f32) (xo : Vec F S8x512 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz]
  simp only [View.readAt_eq_ld, h1.read_unread, h2.read_unread, h3.read_unread, View.ld_unit_zero (S := S8x6400) hz,
    View.ld_unit_zero (S := S6400x512) hz, View.ld_unit_zero (S := S8x512) hz]

/-- The first point: the zero block is stored, read back, and the second store leaves the payload of the two tiles and
    the zero block. -/
theorem out_A (c : Dev nD) (i : grid0.Coords) (a1 : Memref sig .tc .vmem S8x6400 .f32) (h1 : a1.IsWhole)
    (a2 : Memref sig .tc .vmem S6400x512 .f32) (h2 : a2.IsWhole) (a3 : Memref sig .tc .vmem S8x512 .f32) (h3 : a3.IsWhole)
    (hc : cond0_0 i) (x0 : Vec F S8x6400 .f32) (x1 : Vec F S6400x512 .f32) :
    out0_A_2 c i a1 h1 a2 h2 a3 h3 hc x0 x1 = k0_pay2 x0 x1 k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S8x512) hz, View.readCov_unit_zero (S := S8x512) _ hz]
  simp only [View.readAt_eq_ld, h1.read_unread, h2.read_unread, View.ld_unit_zero (S := S8x6400) hz,
    View.ld_unit_zero (S := S6400x512) hz]

end Cases

/-! ## The payload at an entry, over the extended reals: the accumulator's entry plus the tile's 6400 products -/

theorem lhs_pay_0 (i : S8x512.Idx) (q : dot_S8x6400_S6400x512_S8x512_1_0_0_1_n_n.contr.Idx) :
    (dot_S8x6400_S6400x512_S8x512_1_0_0_1_n_n.lhsIdx i q 0).val = (i 0).val := by
  unfold DotDims.lhsIdx
  rw [dif_neg (show ¬(0 : Fin S8x6400.rank) ∈ dot_S8x6400_S6400x512_S8x512_1_0_0_1_n_n.lhsBatch by decide), dif_pos (show (0 : Fin S8x6400.rank) ∈ dot_S8x6400_S6400x512_S8x512_1_0_0_1_n_n.lhsNonContracting by decide)]
  rfl
theorem lhs_pay_1 (i : S8x512.Idx) (q : dot_S8x6400_S6400x512_S8x512_1_0_0_1_n_n.contr.Idx) :
    (dot_S8x6400_S6400x512_S8x512_1_0_0_1_n_n.lhsIdx i q 1).val = (q ⟨0, by decide⟩).val :=
  dot_S8x6400_S6400x512_S8x512_1_0_0_1_n_n.lhsIdx_val_of_single rfl i q
theorem rhs_pay_0 (i : S8x512.Idx) (q : dot_S8x6400_S6400x512_S8x512_1_0_0_1_n_n.contr.Idx) :
    (dot_S8x6400_S6400x512_S8x512_1_0_0_1_n_n.rhsIdx i q 0).val = (q ⟨0, by decide⟩).val :=
  dot_S8x6400_S6400x512_S8x512_1_0_0_1_n_n.rhsIdx_val_of_single rfl i q
theorem rhs_pay_1 (i : S8x512.Idx) (q : dot_S8x6400_S6400x512_S8x512_1_0_0_1_n_n.contr.Idx) :
    (dot_S8x6400_S6400x512_S8x512_1_0_0_1_n_n.rhsIdx i q 1).val = (i 1).val := by
  unfold DotDims.rhsIdx
  rw [dif_neg (show ¬(1 : Fin S6400x512.rank) ∈ dot_S8x6400_S6400x512_S8x512_1_0_0_1_n_n.rhsBatch by decide), dif_pos (show (1 : Fin S6400x512.rank) ∈ dot_S8x6400_S6400x512_S8x512_1_0_0_1_n_n.rhsNonContracting by decide)]
  rfl

/-- The tile product into the zero block, at entry (b, r): the sum over the tile's 6400 columns of x(b, j) w(j, r). -/
theorem matmul_tile (x : FVec Ideal S8x6400 .bf16) (w : FVec Ideal S6400x512 .bf16) (b : Fin 8) (r : Fin 512) :
    matmul dot_S8x6400_S6400x512_S8x512_1_0_0_1_n_n none x w (constant (F := Ideal) S8x512 .f32 0x00000000#32) (ix2 b r)
      = ∑ j : Fin 6400, x (ix2 b j) * w (ix2 j r) := by
  refine (Ideal.matmul_constant_zero_apply dot_S8x6400_S6400x512_S8x512_1_0_0_1_n_n none x w (ix2 b r)).trans ?_
  rw [← Equiv.sum_comp (ValueIdx.contrEquiv1 dot_S8x6400_S6400x512_S8x512_1_0_0_1_n_n 6400 rfl rfl).symm]
  refine Finset.sum_congr rfl fun k _ => ?_
  have hk := ValueIdx.contrEquiv1_symm_val dot_S8x6400_S6400x512_S8x512_1_0_0_1_n_n 6400 rfl rfl k
  have el : dot_S8x6400_S6400x512_S8x512_1_0_0_1_n_n.lhsIdx (ix2 b r) ((ValueIdx.contrEquiv1 dot_S8x6400_S6400x512_S8x512_1_0_0_1_n_n 6400 rfl rfl).symm k) = ix2 b k := funext fun a => Fin.ext (by
    match a with
    | ⟨0, _⟩ => exact lhs_pay_0 _ _
    | ⟨1, _⟩ => exact (lhs_pay_1 _ _).trans hk)
  have er : dot_S8x6400_S6400x512_S8x512_1_0_0_1_n_n.rhsIdx (ix2 b r) ((ValueIdx.contrEquiv1 dot_S8x6400_S6400x512_S8x512_1_0_0_1_n_n 6400 rfl rfl).symm k) = ix2 k r := funext fun a => Fin.ext (by
    match a with
    | ⟨0, _⟩ => exact (rhs_pay_0 _ _).trans hk
    | ⟨1, _⟩ => exact rhs_pay_1 _ _)
  rw [el, er]

/-- The update's payload at entry (b, r): the format changes are the identity on extended reals, the shape casts are to
    the same shape, the sum of blocks is entrywise. -/
theorem pay2_apply (x : Vec Ideal S8x6400 .f32) (w : Vec Ideal S6400x512 .f32) (acc : Vec Ideal S8x512 .f32) (b : Fin 8) (r : Fin 512) :
    k0_pay2 x w acc (ix2 b r) = acc (ix2 b r) + ∑ j : Fin 6400, x (ix2 b j) * w (ix2 j r) := by
  unfold k0_pay2
  refine (addf_apply _ _ (ix2 b r)).trans ?_
  refine congrArg₂ (· + ·) (congrFun (shapeCast_self acc shapeCasts_S8x512_S8x512) (ix2 b r)) ?_
  have e : shapeCast S8x6400 x shapeCasts_S8x6400_S8x6400 = x := shapeCast_self x _
  rw [e]
  exact matmul_tile x w b r

/-- The reset's payload is the zero block. -/
theorem pay1_apply (i : S8x512.Idx) : k0_pay1 (F := Ideal) i = 0 := by
  unfold k0_pay1
  exact Ideal.ofBits_zero_f32

/-! ## The tiles the windows read, and the running sum -/

-- the buffer contents the region is entered with: a parameter, as in the generated frame
variable (V : (c : Dev nD) → (b : Ref sig .tc) → Buf (Elt Ideal) ((c : Thread nD τ).loc b))

/-- X, the 8 x 128000 array; W, the 128000 x 512 array; and their tiles at grid point t. -/
abbrev xarr (c : Dev nD) : Vec Ideal S8x128000 .f32 := V c main_v2
abbrev warr (c : Dev nD) : Vec Ideal S128000x512 .f32 := V c main_arg1
abbrev xblk (c : Dev nD) (t : Fin cfg0.N) : Vec Ideal S8x6400 .f32 := iblk0 V c 0 t
abbrev wblk (c : Dev nD) (t : Fin cfg0.N) : Vec Ideal S6400x512 .f32 := iblk0 V c 1 t

/-- Point t's block of X is block (0, t) and its block of W is block (t, 0). -/
theorem idx_x : ∀ t : Fin cfg0.N, win0_0.index t 0 = 0 ∧ win0_0.index t 1 = t.val :=
  (by decide +kernel : ∀ t : Fin grid0.N, win0_0.index t 0 = 0 ∧ win0_0.index t 1 = t.val)
theorem idx_w : ∀ t : Fin cfg0.N, win0_1.index t 0 = t.val ∧ win0_1.index t 1 = 0 :=
  (by decide +kernel : ∀ t : Fin grid0.N, win0_1.index t 0 = t.val ∧ win0_1.index t 1 = 0)

/-- X's tile at point t, entry (b, j), is X(b, 6400 t + j). -/
theorem xblk_apply (c : Dev nD) (t : Fin cfg0.N) (b : Fin 8) (j : Fin 6400) (h : 6400 * t.val + j.val < 128000) :
    xblk V c t (ix2 b j) = xarr V c (ix2 b ⟨6400 * t.val + j.val, h⟩) := by
  show iblk0 V c 0 t (ix2 b j) = V c main_v2 _
  unfold iblk0
  rw [View.read_apply]
  show V c main_v2 _ = V c main_v2 _
  refine congrArg (V c main_v2) ?_
  funext a
  apply Fin.ext
  match a with
  | ⟨0, _⟩ => show win0_0.index t 0 * 8 + 1 * b.val = b.val; rw [(idx_x t).1]; omega
  | ⟨1, _⟩ => show win0_0.index t 1 * 6400 + 1 * j.val = 6400 * t.val + j.val; rw [(idx_x t).2]; omega

/-- W's tile at point t, entry (j, r), is W(6400 t + j, r). -/
theorem wblk_apply (c : Dev nD) (t : Fin cfg0.N) (j : Fin 6400) (r : Fin 512) (h : 6400 * t.val + j.val < 128000) :
    wblk V c t (ix2 j r) = warr V c (ix2 ⟨6400 * t.val + j.val, h⟩ r) := by
  show iblk0 V c 1 t (ix2 j r) = V c main_arg1 _
  unfold iblk0
  rw [View.read_apply]
  show V c main_arg1 _ = V c main_arg1 _
  refine congrArg (V c main_arg1) ?_
  funext a
  apply Fin.ext
  match a with
  | ⟨0, _⟩ => show win0_1.index t 0 * 6400 + 1 * j.val = 6400 * t.val + j.val; rw [(idx_w t).1]; omega
  | ⟨1, _⟩ => show win0_1.index t 1 * 512 + 1 * r.val = r.val; rw [(idx_w t).2]; omega

/-- Tile n's products at entry (b, r) are the long contraction's terms 6400 n, …, 6400 n + 6399. -/
theorem tile_sum (X : Vec Ideal S8x128000 .f32) (W : Vec Ideal S128000x512 .f32) (x : Vec Ideal S8x6400 .f32)
    (w : Vec Ideal S6400x512 .f32) (n : ℕ) (hn : n < 20)
    (hx : ∀ (b : Fin 8) (j : Fin 6400) (h : 6400 * n + j.val < 128000), x (ix2 b j) = X (ix2 b ⟨6400 * n + j.val, h⟩))
    (hw : ∀ (j : Fin 6400) (r : Fin 512) (h : 6400 * n + j.val < 128000), w (ix2 j r) = W (ix2 ⟨6400 * n + j.val, h⟩ r))
    (b : Fin 8) (r : Fin 512) :
    ∑ j : Fin 6400, x (ix2 b j) * w (ix2 j r) = ∑ j : Fin 6400, Cert.Mint.downTerm X W (ix2 b r) (6400 * n + j.val) := by
  refine Finset.sum_congr rfl fun j _ => ?_
  have h : 6400 * n + j.val < 128000 := by have := j.isLt; omega
  rw [hx b j h, hw j r h, Cert.Mint.downTerm_of_lt X W (ix2 b r) _ h]

/-- After point n the accumulator block holds, at entry (b, r), the contraction over the first n + 1 tiles: point 0
    starts from the zero block, every later point adds its tile's products to what the point before left. -/
theorem outsAt_apply (c : Dev nD) : ∀ (n : ℕ) (h : n < cfg0.N) (b : Fin 8) (r : Fin 512),
    (outsAt0 V c n h : Vec Ideal S8x512 .f32) (ix2 b r)
      = Cert.Mint.projDownUpTo (n + 1) (xarr V c) (warr V c) (ix2 b r)
  | 0, h, b, r => by
    refine (congrFun ((outsAt0_A V c ⟨0, h⟩ rfl).trans
      (out_A (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) ((hcond0_0 ⟨0, h⟩).mpr rfl) (xblk V c ⟨0, h⟩) (wblk V c ⟨0, h⟩))) (ix2 b r)).trans ?_
    refine (pay2_apply (xblk V c ⟨0, h⟩) (wblk V c ⟨0, h⟩) (k0_pay1 (F := Ideal)) b r).trans ?_
    rw [Cert.Mint.projDownUpTo_succ, Cert.Mint.projDownUpTo_zero, pay1_apply]
    exact congrArg (0 + ·) (tile_sum (xarr V c) (warr V c) (xblk V c ⟨0, h⟩) (wblk V c ⟨0, h⟩) 0 (by omega)
      (fun b j h' => xblk_apply V c ⟨0, h⟩ b j h') (fun j r h' => wblk_apply V c ⟨0, h⟩ j r h') b r)
  | n + 1, h, b, r => by
    have hN : cfg0.N = 20 := N_0
    have hB : ¬(⟨n + 1, h⟩ : Fin cfg0.N).val % 20 = 0 := by dsimp only; omega
    refine (congrFun ((outsAt0_B V c ⟨n + 1, h⟩ hB).trans
      (out_B (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh))
        (xblk V c ⟨n + 1, h⟩) (wblk V c ⟨n + 1, h⟩) (outsAt0 V c n (Nat.lt_of_succ_lt h)))) (ix2 b r)).trans ?_
    refine (pay2_apply (xblk V c ⟨n + 1, h⟩) (wblk V c ⟨n + 1, h⟩) (outsAt0 V c n (Nat.lt_of_succ_lt h)) b r).trans ?_
    rw [Cert.Mint.projDownUpTo_succ]
    exact congrArg₂ (· + ·) (outsAt_apply c n (Nat.lt_of_succ_lt h) b r)
      (tile_sum (xarr V c) (warr V c) (xblk V c ⟨n + 1, h⟩) (wblk V c ⟨n + 1, h⟩) (n + 1) (by omega)
        (fun b j h' => xblk_apply V c ⟨n + 1, h⟩ b j h') (fun j r h' => wblk_apply V c ⟨n + 1, h⟩ j r h') b r)

/-- The same, as an equation of blocks. -/
theorem outsAt_eq (c : Dev nD) (n : ℕ) (h : n < cfg0.N) :
    outsAt0 V c n h = Cert.Mint.projDownUpTo (n + 1) (xarr V c) (warr V c) := by
  funext i
  obtain ⟨b, r, rfl⟩ : ∃ (b : Fin 8) (r : Fin 512), i = ix2 b r := ⟨i 0, i 1, eq_ix2 i⟩
  exact outsAt_apply V c n h b r

/-! ## The one write-back -/

/-- The last of the twenty points. -/
abbrev tLast : Fin cfg0.N := ⟨19, by rw [show cfg0.N = 20 from N_0]; decide⟩

/-- The contraction over all twenty tiles, as contents of the 8 x 512 result array. -/
abbrev result (c : Dev nD) : Buf (Elt Ideal) ((c : Thread nD τ).loc main_v3) :=
  Cert.Mint.projDownUpTo (19 + 1) (xarr V c) (warr V c)

/-- The only write-back is after the last point, and what it writes is the whole array at the full running sum: the
    output's one block, at block index (0, 0), is the array. -/
theorem flushed_eq (c : Dev nD) (t : Fin cfg0.N) (hf : (cfg0.win 2).flush t = true) :
    (dat0 V c).flushed 2 t = ((cfg0.win 2).blk t).view.read (Elt Ideal) (result V c) := by
  have hN : cfg0.N = 20 := N_0
  have h19 : t.val = 19 := by have := (flush0_2 t).mp hf; have := t.isLt; omega
  obtain rfl : t = tLast := Fin.ext h19
  show (cfg0.win 2).cut (grid0.coords tLast) ((dat0 V c).after 2 tLast) = _
  rw [after0_2]
  show (cfg0.win 2).cut (grid0.coords tLast) (outsAt0 V c 19 tLast.isLt) = _
  rw [outsAt_eq V c 19 tLast.isLt]
  have hz' : (fun a => win0_2.index tLast a * main_v3.ty.shape.size a) = fun _ => 0 :=
    funext fun a => by fin_cases a <;> decide
  exact (Memref.read_access_unit_zero (Elt Ideal) main_v3 hz' (fun a => by rw [congrFun hz' a]; simp) (result V c)).symm

/-- At the last point the output's one block sits at the array's origin. -/
theorem origin_last : win0_2.index tLast (0 : Fin 2) = 0 ∧ win0_2.index tLast (1 : Fin 2) = 0 := by decide +kernel

/-- That block is 8 x 512, the array's own extent, so every index of the array lies in it. -/
theorem mem_last (i : S8x512.Idx) : i ∈ ((cfg0.win 2).blk tLast).view.set := by
  show i ∈ ((View.whole main_v3).slice (win0_2.rect tLast)).set
  rw [View.set_slice_whole, Rect.mem_set_unit]
  obtain ⟨e0, e1⟩ := origin_last
  have h0 : (i 0).val < 8 := (i 0).isLt
  have h1 : (i 1).val < 512 := (i 1).isLt
  intro a
  match a with
  | ⟨0, _⟩ =>
    show win0_2.index tLast (0 : Fin 2) * 8 ≤ (i 0).val ∧ (i 0).val < win0_2.index tLast (0 : Fin 2) * 8 + 8
    omega
  | ⟨1, _⟩ =>
    show win0_2.index tLast (1 : Fin 2) * 512 ≤ (i 1).val ∧ (i 1).val < win0_2.index tLast (1 : Fin 2) * 512 + 512
    omega

/-- So the result array ends holding X W contracted over the whole long axis: the single write-back covers it, and twenty
    tiles are the whole axis. -/
theorem down_final (c : Dev nD) :
    (dat0 (F := Ideal) V c).arrAt 2 cfg0.N = Cert.Mint.projDown (V c main_v2) (V c main_arg1) :=
  ((dat0 V c).arrAt_eq_of_cover 2 (result V c) (flushed_eq V c)
    fun i => ⟨tLast, (flush0_2 tLast).mpr rfl, mem_last i⟩).trans (Cert.Mint.projDownUpTo_all (xarr V c) (warr V c))

end Cert.KernelIdeal.DownValue

end
-- ==== Proof.UpValue.lean ====
/-
  The second contraction, tile by tile.  The result is 8 x 128000 and is produced in twenty column tiles of 6400.
  With A the whole 8 x 512 array and W the 128000 x 512 array, tile t holds at row b and column j
      sum over r < 512 of A(b, r) * W(6400 t + j, r):
  the tile's own block of W is its rows 6400 t .. 6400 t + 6399, and both factors are contracted over their short
  axis.  Every tile is written back; column v of the result lies in tile v / 6400 and in no other, so the tiles fill
  the array, which therefore ends holding projUp A W at every index.
-/
import proofs.«144648_j38689065402635_1_alg».proof.Proof.Gen.KernelIdeal.Frame
import proofs.«144648_j38689065402635_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.UpValue

open Cert.KernelIdeal Cert.KernelIdeal.Gen Idealize.ShloMosaic.ValueIdx

-- the buffer contents the region is entered with: a parameter, as in the generated frame
variable (V : (c : Dev nD) → (b : Ref sig .tc) → Buf (Elt Ideal) ((c : Thread nD τ).loc b))

/-! ## One tile's product at an index

The product of an 8 x 512 by a 6400 x 512 operand contracts the second axis of both: the result's row picks the left
operand's row, the result's column picks the right operand's ROW, and the contracted position r runs along both. -/

/-- The left operand is read at the result's row … -/
theorem lhs_row (i : S8x6400.Idx) (q : dot_S8x512_S6400x512_S8x6400_1_1_0_0_n_n.contr.Idx) :
    (dot_S8x512_S6400x512_S8x6400_1_1_0_0_n_n.lhsIdx i q 0).val = (i 0).val := by
  unfold DotDims.lhsIdx
  rw [dif_neg (show ¬(0 : Fin S8x512.rank) ∈ dot_S8x512_S6400x512_S8x6400_1_1_0_0_n_n.lhsBatch by decide), dif_pos (show (0 : Fin S8x512.rank) ∈ dot_S8x512_S6400x512_S8x6400_1_1_0_0_n_n.lhsNonContracting by decide)]
  rfl
/-- … and at the contracted position. -/
theorem lhs_contr (i : S8x6400.Idx) (q : dot_S8x512_S6400x512_S8x6400_1_1_0_0_n_n.contr.Idx) :
    (dot_S8x512_S6400x512_S8x6400_1_1_0_0_n_n.lhsIdx i q 1).val = (q ⟨0, by decide⟩).val :=
  dot_S8x512_S6400x512_S8x6400_1_1_0_0_n_n.lhsIdx_val_of_single rfl i q
/-- The right operand is read at the ROW the result's column names … -/
theorem rhs_row (i : S8x6400.Idx) (q : dot_S8x512_S6400x512_S8x6400_1_1_0_0_n_n.contr.Idx) :
    (dot_S8x512_S6400x512_S8x6400_1_1_0_0_n_n.rhsIdx i q 0).val = (i 1).val := by
  unfold DotDims.rhsIdx
  rw [dif_neg (show ¬(0 : Fin S6400x512.rank) ∈ dot_S8x512_S6400x512_S8x6400_1_1_0_0_n_n.rhsBatch by decide), dif_pos (show (0 : Fin S6400x512.rank) ∈ dot_S8x512_S6400x512_S8x6400_1_1_0_0_n_n.rhsNonContracting by decide)]
  rfl
/-- … and at the contracted position too. -/
theorem rhs_contr (i : S8x6400.Idx) (q : dot_S8x512_S6400x512_S8x6400_1_1_0_0_n_n.contr.Idx) :
    (dot_S8x512_S6400x512_S8x6400_1_1_0_0_n_n.rhsIdx i q 1).val = (q ⟨0, by decide⟩).val :=
  dot_S8x512_S6400x512_S8x6400_1_1_0_0_n_n.rhsIdx_val_of_single rfl i q

/-- The tile at (b, j) is the sum over r < 512 of a(b, r) * w(j, r): over the extended reals the narrowing of the
    operands changes nothing and the zero the sum starts from adds nothing. -/
theorem tile_apply (a : Vec Ideal S8x512 .f32) (w : Vec Ideal S6400x512 .f32) (i : S8x6400.Idx) :
    k1_pay1 (F := Ideal) a w i
      = ∑ r : Fin 512, (a (ix2 (n0 := 8) (n1 := 512) (i 0) r) : EReal) * (w (ix2 (n0 := 6400) (n1 := 512) (i 1) r) : EReal) := by
  unfold k1_pay1
  simp only [shapeCast_self]
  simp only [matmul]
  rw [Ideal.matmul_constant_zero_apply, ← Equiv.sum_comp (ValueIdx.contrEquiv1 dot_S8x512_S6400x512_S8x6400_1_1_0_0_n_n 512 rfl rfl).symm]
  refine Finset.sum_congr rfl fun r _ => ?_
  have hr := ValueIdx.contrEquiv1_symm_val dot_S8x512_S6400x512_S8x6400_1_1_0_0_n_n 512 rfl rfl r
  have el : dot_S8x512_S6400x512_S8x6400_1_1_0_0_n_n.lhsIdx i ((ValueIdx.contrEquiv1 dot_S8x512_S6400x512_S8x6400_1_1_0_0_n_n 512 rfl rfl).symm r) = ix2 (n0 := 8) (n1 := 512) (i 0) r := funext fun b => Fin.ext (by
    match b with
    | ⟨0, _⟩ => exact lhs_row _ _
    | ⟨1, _⟩ => exact (lhs_contr _ _).trans hr)
  have er : dot_S8x512_S6400x512_S8x6400_1_1_0_0_n_n.rhsIdx i ((ValueIdx.contrEquiv1 dot_S8x512_S6400x512_S8x6400_1_1_0_0_n_n 512 rfl rfl).symm r) = ix2 (n0 := 6400) (n1 := 512) (i 1) r := funext fun b => Fin.ext (by
    match b with
    | ⟨0, _⟩ => exact rhs_row _ _
    | ⟨1, _⟩ => exact (rhs_contr _ _).trans hr)
  rw [el, er]
  rfl

/-! ## Where each tile sits -/

theorem zeros : (![0, 0] : Fin 2 → Nat) = fun _ => 0 := funext fun a => by fin_cases a <;> rfl

/-- At point t: the small operand's block is the whole array (block (0, 0)); the long operand's block is block t of
    its rows; the result's block is block t of its columns. -/
theorem tile_origin : ∀ t : Fin cfg1.N, win1_0.index t (0 : Fin 2) = 0
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = t.val :=
  (by decide +kernel : ∀ t : Fin grid1.N, _)

/-- The small operand's block at (b, r) is A(b, r), b being the row of the result's own position in the array. -/
theorem small_block (c : Dev nD) (t : Fin cfg1.N) (j : S8x6400.Idx) (r : Fin 512) :
    iblk1 (F := Ideal) V c 0 t (ix2 (n0 := 8) (n1 := 512) (j 0) r)
      = V c main_v3 (ix2 (n0 := 8) (n1 := 512) ((((cfg1.win 2).blk t).view.emb j) 0) r) := by
  unfold iblk1
  rw [View.read_apply]
  show V c main_v3 (((cfg1.win 0).blk t).view.emb (ix2 (n0 := 8) (n1 := 512) (j 0) r)) = _
  obtain ⟨e0, e1, e2, e3, e4, e5⟩ := tile_origin t
  refine congrArg (V c main_v3) (funext fun a => Fin.ext ?_)
  match a with
  | ⟨0, _⟩ =>
    show win1_0.index t (0 : Fin 2) * 8 + 1 * (j 0).val = win1_2.index t (0 : Fin 2) * 8 + 1 * (j 0).val
    omega
  | ⟨1, _⟩ =>
    show win1_0.index t (1 : Fin 2) * 512 + 1 * r.val = r.val
    omega

/-- The long operand's block at (j, r) is W(6400 t + j, r): row 6400 t + j of W is column 6400 t + j of the result,
    the result's own position in the array. -/
theorem long_block (c : Dev nD) (t : Fin cfg1.N) (j : S8x6400.Idx) (r : Fin 512) :
    iblk1 (F := Ideal) V c 1 t (ix2 (n0 := 6400) (n1 := 512) (j 1) r)
      = V c main_arg1 (ix2 (n0 := 128000) (n1 := 512) ((((cfg1.win 2).blk t).view.emb j) 1) r) := by
  unfold iblk1
  rw [View.read_apply]
  show V c main_arg1 (((cfg1.win 1).blk t).view.emb (ix2 (n0 := 6400) (n1 := 512) (j 1) r)) = _
  obtain ⟨e0, e1, e2, e3, e4, e5⟩ := tile_origin t
  refine congrArg (V c main_arg1) (funext fun a => Fin.ext ?_)
  match a with
  | ⟨0, _⟩ =>
    show win1_1.index t (0 : Fin 2) * 6400 + 1 * (j 1).val = win1_2.index t (1 : Fin 2) * 6400 + 1 * (j 1).val
    omega
  | ⟨1, _⟩ =>
    show win1_1.index t (1 : Fin 2) * 512 + 1 * r.val = r.val
    omega

/-! ## What a point writes back -/

/-- Point t writes back tile t of projUp A W. -/
theorem flushed_eq (c : Dev nD) (t : Fin cfg1.N) :
    (dat1 (F := Ideal) V c).flushed 2 t
      = ((cfg1.win 2).blk t).view.read (Elt Ideal) (Cert.Mint.projUp (V c main_v3) (V c main_arg1)) := by
  show (cfg1.win 2).cut (grid1.coords t) ((dat1 V c).after 2 t) = _
  rw [after1_2]
  unfold out1_2
  rw [View.canon_unit_zero zeros]
  simp only [View.ld_unit_zero (S := S8x512) zeros, View.ld_unit_zero (S := S6400x512) zeros]
  funext j
  show k1_pay1 (F := Ideal) (iblk1 V c 0 t) (iblk1 V c 1 t) j
      = Cert.Mint.projUp (V c main_v3) (V c main_arg1) (((cfg1.win 2).blk t).view.emb j)
  refine (tile_apply (iblk1 V c 0 t) (iblk1 V c 1 t) j).trans ?_
  unfold Cert.Mint.projUp
  refine Finset.sum_congr rfl fun r _ => ?_
  rw [small_block V c t j r, long_block V c t j r]

/-! ## The tiles fill the array -/

/-- An index of the result is in tile t iff each coordinate is in the tile's range on its axis. -/
theorem mem_blk (t : Fin cfg1.N) (i : S8x128000.Idx) :
    i ∈ ((cfg1.win 2).blk t).view.set ↔ ∀ a : Fin 2, win1_2.index t a * S8x6400.size a ≤ (i a).val ∧ (i a).val < win1_2.index t a * S8x6400.size a + S8x6400.size a := by
  show i ∈ ((View.whole main_v4).slice (win1_2.rect t)).set ↔ _
  rw [View.set_slice_whole, Rect.mem_set_unit]
  exact Iff.rfl

/-- Column v < 128000 lies in tile v / 6400 < 20, which is written back like every tile. -/
theorem cover (i : S8x128000.Idx) :
    ∃ t : Fin cfg1.N, (cfg1.win 2).flush t = true ∧ i ∈ ((cfg1.win 2).blk t).view.set := by
  have hi0 : (i 0).val < 8 := (i 0).isLt
  have hi1 : (i 1).val < 128000 := (i 1).isLt
  have hN : cfg1.N = 20 := N_1
  have ht : (i 1).val / 6400 < cfg1.N := by omega
  obtain ⟨e0, e1, e2, e3, e4, e5⟩ := tile_origin ⟨(i 1).val / 6400, ht⟩
  refine ⟨⟨(i 1).val / 6400, ht⟩, flush1_2 _, ?_⟩
  rw [mem_blk]
  intro a
  match a with
  | ⟨0, _⟩ =>
    show win1_2.index ⟨(i 1).val / 6400, ht⟩ (0 : Fin 2) * 8 ≤ (i 0).val ∧ (i 0).val < win1_2.index ⟨(i 1).val / 6400, ht⟩ (0 : Fin 2) * 8 + 8
    omega
  | ⟨1, _⟩ =>
    show win1_2.index ⟨(i 1).val / 6400, ht⟩ (1 : Fin 2) * 6400 ≤ (i 1).val ∧ (i 1).val < win1_2.index ⟨(i 1).val / 6400, ht⟩ (1 : Fin 2) * 6400 + 6400
    have e5' : win1_2.index ⟨(i 1).val / 6400, ht⟩ (1 : Fin 2) = (i 1).val / 6400 := e5
    omega

/-- The array after the twenty points is projUp A W. -/
theorem up_final (c : Dev nD) :
    (dat1 (F := Ideal) V c).arrAt 2 cfg1.N = Cert.Mint.projUp (V c main_v3) (V c main_arg1) :=
  (dat1 (F := Ideal) V c).arrAt_eq_of_cover 2 _ (fun t _ => flushed_eq V c t) cover

end Cert.KernelIdeal.UpValue

end
-- ==== Proof.KernelValue.lean ====
/-
  The kernel's program, read at the extended reals: its result is the shared host arithmetic applied to
  (Xn W) Wᵀ, where Xn is the input divided by its Frobenius norm.

  The program's buffers are followed boundary by boundary from the launch memory.  Before the first region the host
  computes the norm n of the input and Xn = input / n.  The first region leaves, in its output array, Xn W contracted
  over the long axis tile by tile (the sum of twenty partial products is the whole sum); its two input arrays are
  left as they were.  The second region leaves, in its output array, that 8 x 512 result contracted against each
  6400-row tile of W over the short axis, tile by tile, which is (Xn W) Wᵀ; W is again left as it was, and Xn and n
  sit in buffers neither region touches.  After the regions the host applies the blend to these three values.
-/
import proofs.«144648_j38689065402635_1_alg».proof.Proof.Gen.KernelIdeal.Frame
import proofs.«144648_j38689065402635_1_alg».proof.Proof.Spec
import proofs.«144648_j38689065402635_1_alg».proof.Proof.Glue
import proofs.«144648_j38689065402635_1_alg».proof.Proof.DownValue
import proofs.«144648_j38689065402635_1_alg».proof.Proof.UpValue
import Idealize.ShloMosaic.Lib.StableHlo.Run

noncomputable section

namespace Cert.KernelIdeal.KernelValue

open Cert.KernelIdeal Cert.KernelIdeal.Gen
open Idealize.ShloMosaic Idealize.ShloMosaic.TcCoe Idealize.SL.Sem Idealize.ShloMosaic.StableHlo
open Idealize.ShloMosaic.Pipeline (Dat)
open Cert.KernelIdeal.Glue (frob spread normalize blend)
open Cert.Mint (projDown projUp)

variable (m : (ℓ : Loc nD τ sig) → Buf (Elt Ideal) ℓ) (ρ : Dev nD → PrngReg)

/-- The two argument arrays as launched. -/
abbrev argX (c : Dev nD) : FVec Ideal S8x128000 .f32 := m ((c : Thread nD τ).loc main_arg0)
abbrev argW (c : Dev nD) : FVec Ideal S128000x512 .f32 := m ((c : Thread nD τ).loc main_arg1)

/-! ## Before the regions -/

/-- The input's Frobenius norm. -/
theorem entry_norm (c : Dev nD) : W2 m ρ c (Proc.devRef .tc main_v0) = frob (F := Ideal) (argX m c) := by
  show StableHlo.after hostOps0_1 (StableHlo.after hostOps0 (W0 m ρ c)) (Proc.devRef .tc main_v0) = _
  simp only [hostOps0_1, hostOps0]
  after_results
  rfl

/-- The normalised input. -/
theorem entry_normalized (c : Dev nD) : W2 m ρ c (Proc.devRef .tc main_v2) = normalize (F := Ideal) (argX m c) := by
  show StableHlo.after hostOps0_1 (StableHlo.after hostOps0 (W0 m ρ c)) (Proc.devRef .tc main_v2) = _
  simp only [hostOps0_1, hostOps0]
  after_results
  rfl

/-- W is not written before the regions. -/
theorem entry_W (c : Dev nD) : W2 m ρ c (Proc.devRef .tc main_arg1) = argW m c := by
  show StableHlo.after hostOps0_1 (StableHlo.after hostOps0 (W0 m ρ c)) (Proc.devRef .tc main_arg1) = _
  simp only [hostOps0_1, hostOps0]
  after_results

/-! ## Across the first region -/

/-- Its output array: Xn W. -/
theorem mid_down (c : Dev nD) :
    W3 m ρ c (Proc.devRef .tc main_v3) = projDown (normalize (F := Ideal) (argX m c)) (argW m c) := by
  refine (W3_arr m ρ c 2).trans ?_
  rw [Cert.KernelIdeal.DownValue.down_final (V2 m ρ) c]
  show projDown (W2 m ρ c (Proc.devRef .tc main_v2)) (W2 m ρ c (Proc.devRef .tc main_arg1)) = _
  rw [entry_normalized, entry_W]

/-- W, an input of the region, is as it was. -/
theorem mid_W (c : Dev nD) : W3 m ρ c (Proc.devRef .tc main_arg1) = argW m c :=
  ((W3_arr m ρ c 1).trans (((dat0 (V2 m ρ) c).arrAt_in 1 rfl _).trans (A_eq0 (V2 m ρ) c 1))).trans (entry_W m ρ c)

/-- Xn, an input of the region, is as it was. -/
theorem mid_normalized (c : Dev nD) : W3 m ρ c (Proc.devRef .tc main_v2) = normalize (F := Ideal) (argX m c) :=
  ((W3_arr m ρ c 0).trans (((dat0 (V2 m ρ) c).arrAt_in 0 rfl _).trans (A_eq0 (V2 m ρ) c 0))).trans (entry_normalized m ρ c)

/-- The norm's buffer is no array of the region. -/
theorem mid_norm (c : Dev nD) : W3 m ρ c (Proc.devRef .tc main_v0) = frob (F := Ideal) (argX m c) :=
  (W3_of_ne m ρ c main_v0 (by decide)).trans (entry_norm m ρ c)

/-! ## Across the second region -/

/-- Its output array: (Xn W) Wᵀ. -/
theorem exit_up (c : Dev nD) :
    W4 m ρ c (Proc.devRef .tc main_v4)
      = projUp (projDown (normalize (F := Ideal) (argX m c)) (argW m c)) (argW m c) := by
  refine (W4_arr m ρ c 2).trans ?_
  rw [Cert.KernelIdeal.UpValue.up_final (V3 m ρ) c]
  show projUp (W3 m ρ c (Proc.devRef .tc main_v3)) (W3 m ρ c (Proc.devRef .tc main_arg1)) = _
  rw [mid_down, mid_W]

/-- Xn and the norm sit in buffers the second region does not touch. -/
theorem exit_normalized (c : Dev nD) : W4 m ρ c (Proc.devRef .tc main_v2) = normalize (F := Ideal) (argX m c) :=
  (W4_of_ne m ρ c main_v2 (by decide)).trans (mid_normalized m ρ c)
theorem exit_norm (c : Dev nD) : W4 m ρ c (Proc.devRef .tc main_v0) = frob (F := Ideal) (argX m c) :=
  (W4_of_ne m ρ c main_v0 (by decide)).trans (mid_norm m ρ c)

/-! ## After the regions -/

/-- The host's last stretches apply the blend to the three values. -/
theorem tail_blend (c : Dev nD) :
    W8 m ρ c (Proc.devRef .tc main_v17)
      = blend (F := Ideal) (W4 m ρ c (Proc.devRef .tc main_v4)) (W4 m ρ c (Proc.devRef .tc main_v2))
          (W4 m ρ c (Proc.devRef .tc main_v0)) := by
  show StableHlo.after hostOps2_3 (StableHlo.after hostOps2_2 (StableHlo.after hostOps2_1 (StableHlo.after hostOps2 (W4 m ρ c))))
    (Proc.devRef .tc main_v17) = _
  simp only [hostOps2_3, hostOps2_2, hostOps2_1, hostOps2]
  after_results
  rfl

/-- The program's result, as a function of its two arguments. -/
theorem result_eq (c : Dev nD) :
    W8 m ρ c (Proc.devRef .tc main_v17)
      = blend (F := Ideal) (projUp (projDown (normalize (F := Ideal) (argX m c)) (argW m c)) (argW m c))
          (normalize (F := Ideal) (argX m c)) (frob (F := Ideal) (argX m c)) := by
  rw [tail_blend, exit_up, exit_normalized, exit_norm]

end Cert.KernelIdeal.KernelValue

end
-- ==== Proof.RefValue.lean ====
/-
  The reference, read at the extended reals: its result is the shared host arithmetic applied to
  (Xn W) Wᵀ, where Xn is the input divided by its Frobenius norm.

  The reference contracts Xn against W over the long axis in one dot product, transposes W, and contracts again over
  the short axis.  At the extended reals a dot product is the plain sum of products over the contracted axis, and the
  transpose read at (r, v) is W at (v, r); so the two stages are projDown and projUp of the specification, index by
  index.  Everything around the two contractions is the same arithmetic the kernel's program applies, named once in
  the glue module, and is not opened here: the two sides are the same term by unfolding names only.
-/
import proofs.«144648_j38689065402635_1_alg».proof.Proof.Gen.ReferenceIdeal.Run
import proofs.«144648_j38689065402635_1_alg».proof.Proof.Gen.ReferenceIdeal.Read
import proofs.«144648_j38689065402635_1_alg».proof.Proof.Gen.KernelIdeal
import proofs.«144648_j38689065402635_1_alg».proof.Proof.Spec
import proofs.«144648_j38689065402635_1_alg».proof.Proof.Glue

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.KernelIdeal.Glue (frob spread normalize blend)
open Cert.Mint (projDown projUp)

/-- The first contraction is the long sum of the specification. -/
theorem down_eq (x0 : (⟨S8x128000, .f32⟩ : BufTy).Contents (Elt Ideal)) (x1 : (⟨S128000x512, .f32⟩ : BufTy).Contents (Elt Ideal)) :
    val_main_v3 (F := Ideal) x0 x1 = projDown (val_main_v2 (F := Ideal) x0) x1 := by
  funext i
  rw [val_main_v3_apply]
  unfold Cert.Mint.projDown
  refine Finset.sum_congr rfl fun k _ => ?_
  have el : lidx_main_v3 i k = ix2 (n0 := 8) (n1 := 128000) (i 0) k :=
    funext fun a => by match a with | ⟨0, _⟩ => rfl | ⟨1, _⟩ => rfl
  have er : ridx_main_v3 i k = ix2 (n0 := 128000) (n1 := 512) k (i 1) :=
    funext fun a => by match a with | ⟨0, _⟩ => rfl | ⟨1, _⟩ => rfl
  rw [el, er]

/-- The second contraction, against the transposed W, is the short sum of the specification against W itself. -/
theorem up_eq (x0 : (⟨S8x128000, .f32⟩ : BufTy).Contents (Elt Ideal)) (x1 : (⟨S128000x512, .f32⟩ : BufTy).Contents (Elt Ideal)) :
    val_main_v5 (F := Ideal) x0 x1 = projUp (val_main_v3 (F := Ideal) x0 x1) x1 := by
  funext i
  rw [val_main_v5_apply]
  unfold Cert.Mint.projUp
  refine Finset.sum_congr rfl fun r _ => ?_
  rw [val_main_v4_apply]
  have el : lidx_main_v5 i r = ix2 (n0 := 8) (n1 := 512) (i 0) r :=
    funext fun a => by match a with | ⟨0, _⟩ => rfl | ⟨1, _⟩ => rfl
  have er : idx_main_v4 (ridx_main_v5 i r) = ix2 (n0 := 128000) (n1 := 512) (i 1) r :=
    funext fun a => by match a with | ⟨0, _⟩ => rfl | ⟨1, _⟩ => rfl
  rw [el, er]

/-- The reference's whole term: the shared arithmetic around (Xn W) Wᵀ. -/
theorem result_eq (x0 : (⟨S8x128000, .f32⟩ : BufTy).Contents (Elt Ideal)) (x1 : (⟨S128000x512, .f32⟩ : BufTy).Contents (Elt Ideal)) :
    val_main_v18 (F := Ideal) x0 x1
      = blend (F := Ideal) (projUp (projDown (normalize (F := Ideal) x0) x1) x1) (normalize (F := Ideal) x0) (frob (F := Ideal) x0) := by
  have hn : val_main_v0 (F := Ideal) x0 = frob (F := Ideal) x0 := rfl
  have hx : val_main_v2 (F := Ideal) x0 = normalize (F := Ideal) x0 := rfl
  have hb : val_main_v18 (F := Ideal) x0 x1
      = blend (F := Ideal) (val_main_v5 (F := Ideal) x0 x1) (val_main_v2 (F := Ideal) x0) (val_main_v0 (F := Ideal) x0) := rfl
  rw [hb, up_eq, down_eq, hx, hn]

end Cert.ReferenceIdeal.RefValue

end
-- ==== Proof.lean ====
/-
  The certificate: a kernel that normalises an 8 x 128000 input by its Frobenius norm, projects it down through a
  128000 x 512 matrix W and back up through Wᵀ in two tiled passes, and blends the result with the normalised input,
  against the same computation written with two whole dot products.

  Over the extended reals the two programs differ only in how the two contractions are grouped: the kernel sums the
  long contraction in twenty tiles of 6400 and computes the second contraction one 6400-column tile of the output at
  a time, the reference sums each in one piece and transposes W first.  A finite sum of extended reals may be
  regrouped freely (addition is commutative and associative; no cancellation and no distributivity is used), and the
  narrowing of the operands to a shorter float format before each product is the identity on exact values, so both
  programs compute (Xn W) Wᵀ with Xn = input / norm.  All the remaining arithmetic (three norms, three divisions, the
  blend with the two printed weights, the final rescaling) is the same sequence of host operations on both sides and
  is carried as one named function, never opened.  The precondition (finite inputs) is not needed by any step.

  The three frame claims: the kernel's program at the word level and at the exact values terminate without a fault
  with their arguments unchanged (the generated frames of the two-region program); the reference is a straight line
  of host operations, and its frame is its run with the result dropped.  The idealisation rewrote nothing, so the
  preservation claim is trivial.
-/
import proofs.«144648_j38689065402635_1_alg».proof.Defs
import proofs.«144648_j38689065402635_1_alg».proof.Proof.Gen.Kernel.Frame
import proofs.«144648_j38689065402635_1_alg».proof.Proof.Gen.KernelIdeal.Frame
import proofs.«144648_j38689065402635_1_alg».proof.Proof.Gen.ReferenceIdeal
import proofs.«144648_j38689065402635_1_alg».proof.Proof.Gen.ReferenceIdeal.Run
import proofs.«144648_j38689065402635_1_alg».proof.Proof.Gen.ReferenceIdeal.Read
import proofs.«144648_j38689065402635_1_alg».proof.Proof.Gen.Pre_finite_inputs
import proofs.«144648_j38689065402635_1_alg».proof.Proof.KernelIdealRun
import proofs.«144648_j38689065402635_1_alg».proof.Proof.KernelValue
import proofs.«144648_j38689065402635_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the shared host arithmetic applied to (Xn W) Wᵀ of arguments that agree. -/
theorem algebraic : Cert.algebraic_KernelIdeal_ReferenceIdeal := by
  intro m ρ m' ρ' _ hagree
  refine ⟨fun c => Cert.KernelIdeal.Gen.W8 m ρ c (Proc.devRef .tc Cert.KernelIdeal.main_v17),
    Cert.KernelIdeal.Gen.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  exact (Cert.KernelIdeal.KernelValue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
